-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x128 : Shape := ⟨3, ![256, 64, 128]⟩
abbrev S1048576x1 : Shape := ⟨2, ![1048576, 1]⟩
abbrev S1048576x128 : Shape := ⟨2, ![1048576, 128]⟩
abbrev S1048576 : Shape := ⟨1, ![1048576]⟩
abbrev S_ : Shape := ⟨0, ![]⟩

class Facts : Prop where
  bcast_S_S256x64x128 : S_.BroadcastsInDim S256x64x128 (![] : Fin 0 → Fin S256x64x128.rank)
  reducesTo_S256x64x128_S_d0_1_2 : S256x64x128.ReducesTo [0, 1, 2] S_
  h_S_ : 0 < S_.numel
  bcast_S_S1048576x1 : S_.BroadcastsInDim S1048576x1 (![] : Fin 0 → Fin S1048576x1.rank)
  reducesTo_S1048576x1_S_d0_1 : S1048576x1.ReducesTo [0, 1] S_
  bcast_S_S1048576x128 : S_.BroadcastsInDim S1048576x128 (![] : Fin 0 → Fin S1048576x128.rank)
  reducesTo_S1048576x128_S_d0_1 : S1048576x128.ReducesTo [0, 1] S_

variable [Facts]

def fn {F : FTy → Type} [FloatOps F] (main_arg0 : FVec F S256x64x128 .f32) (main_arg1 : FVec F S1048576x1 .f32) (main_arg2 : FVec F S1048576x128 .f32) (main_arg3 : IVec S1048576 32) (main_arg4 : IVec S1048576 32) : IVec S_ 1 :=
  let main_v0 : FVec F S256x64x128 .f32 := Host.absf main_arg0
  let main_cst : FVec F S_ .f32 := constant S_ .f32 0x7F800000#32
  let main_v1 : FVec F S256x64x128 .f32 := broadcastInDim S256x64x128 ![] bcast_S_S256x64x128 main_cst
  let main_v2 : IVec S256x64x128 1 := cmpf .olt main_v0 main_v1
  let main_c : IVec S_ 1 := constantI S_ 1 1#1
  let main_v3 : IVec S_ 1 := (fun x v => Host.reduce IntOp.andi x v reducesTo_S256x64x128_S_d0_1_2 h_S_) main_v2 main_c
  let main_v4 : FVec F S1048576x1 .f32 := Host.absf main_arg1
  let main_cst_0 : FVec F S_ .f32 := constant S_ .f32 0x7F800000#32
  let main_v5 : FVec F S1048576x1 .f32 := broadcastInDim S1048576x1 ![] bcast_S_S1048576x1 main_cst_0
  let main_v6 : IVec S1048576x1 1 := cmpf .olt main_v4 main_v5
  let main_c_1 : IVec S_ 1 := constantI S_ 1 1#1
  let main_v7 : IVec S_ 1 := (fun x v => Host.reduce IntOp.andi x v reducesTo_S1048576x1_S_d0_1 h_S_) main_v6 main_c_1
  let main_v8 : IVec S_ 1 := andi main_v3 main_v7
  let main_v9 : FVec F S1048576x128 .f32 := Host.absf main_arg2
  let main_cst_2 : FVec F S_ .f32 := constant S_ .f32 0x7F800000#32
  let main_v10 : FVec F S1048576x128 .f32 := broadcastInDim S1048576x128 ![] bcast_S_S1048576x128 main_cst_2
  let main_v11 : IVec S1048576x128 1 := cmpf .olt main_v9 main_v10
  let main_c_3 : IVec S_ 1 := constantI S_ 1 1#1
  let main_v12 : IVec S_ 1 := (fun x v => Host.reduce IntOp.andi x v reducesTo_S1048576x128_S_d0_1 h_S_) main_v11 main_c_3
  let main_v13 : IVec S_ 1 := andi main_v8 main_v12
  main_v13
-- ==== Kernel.lean ====
abbrev S256x64x128 : Shape := ⟨3, ![256, 64, 128]⟩
abbrev S1048576x1 : Shape := ⟨2, ![1048576, 1]⟩
abbrev S1048576x128 : Shape := ⟨2, ![1048576, 128]⟩
abbrev S1048576 : Shape := ⟨1, ![1048576]⟩
abbrev S16384x128 : Shape := ⟨2, ![16384, 128]⟩
abbrev S_ : Shape := ⟨0, ![]⟩
abbrev S8192x1 : Shape := ⟨2, ![8192, 1]⟩
abbrev S8192x128 : Shape := ⟨2, ![8192, 128]⟩
abbrev S2048x128 : Shape := ⟨2, ![2048, 128]⟩

abbrev nBuf : Space → Nat
  | .hbm => 22
  | .vmem => 12
  | .smem => 0
  | _ => 0

abbrev bufTy : (tb : Table) → Fin (tcTables nBuf tb) → BufTy
  | .hbm, ⟨0, _⟩ => ⟨S256x64x128, .f32⟩
  | .hbm, ⟨1, _⟩ => ⟨S1048576x1, .f32⟩
  | .hbm, ⟨2, _⟩ => ⟨S1048576x128, .f32⟩
  | .hbm, ⟨3, _⟩ => ⟨S1048576, .i32⟩
  | .hbm, ⟨4, _⟩ => ⟨S1048576, .i32⟩
  | .hbm, ⟨5, _⟩ => ⟨S16384x128, .f32⟩
  | .hbm, ⟨6, _⟩ => ⟨S_, .i32⟩
  | .hbm, ⟨7, _⟩ => ⟨S1048576, .i32⟩
  | .hbm, ⟨8, _⟩ => ⟨S1048576, .i1⟩
  | .hbm, ⟨9, _⟩ => ⟨S_, .i32⟩
  | .hbm, ⟨10, _⟩ => ⟨S1048576, .i32⟩
  | .hbm, ⟨11, _⟩ => ⟨S1048576, .i32⟩
  | .hbm, ⟨12, _⟩ => ⟨S1048576, .i32⟩
  | .hbm, ⟨13, _⟩ => ⟨S1048576x1, .i32⟩
  | .hbm, ⟨14, _⟩ => ⟨S1048576x128, .f32⟩
  | .hbm, ⟨15, _⟩ => ⟨S1048576x128, .f32⟩
  | .hbm, ⟨16, _⟩ => ⟨S_, .f32⟩
  | .hbm, ⟨17, _⟩ => ⟨S16384x128, .f32⟩
  | .hbm, ⟨18, _⟩ => ⟨S1048576x1, .i32⟩
  | .hbm, ⟨19, _⟩ => ⟨S16384x128, .f32⟩
  | .hbm, ⟨20, _⟩ => ⟨S16384x128, .f32⟩
  | .hbm, ⟨21, _⟩ => ⟨S256x64x128, .f32⟩
  | .local _ .vmem, ⟨0, _⟩ => ⟨S8192x1, .f32⟩
  | .local _ .vmem, ⟨1, _⟩ => ⟨S8192x1, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S8192x128, .f32⟩
  | .local _ .vmem, ⟨7, _⟩ => ⟨S8192x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | _, _ => ⟨S256x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  shapeCasts_S256x64x128_S16384x128 : S256x64x128.ShapeCasts S16384x128
  bcast_S_S1048576 : S_.BroadcastsInDim S1048576 (![] : Fin 0 → Fin S1048576.rank)
  bcast_S1048576_S1048576x1_0 : S1048576.BroadcastsInDim S1048576x1 (![0] : Fin 1 → Fin S1048576x1.rank)
  inb_S8192x1_S8192x1_0_0 : ∀ a, (![0, 0] : Fin 2 → Nat) a + S8192x1.size a ≤ S8192x1.size a
  h_S8192x1 : 0 < S8192x1.numel
  inb_S8192x128_S8192x128_0_0 : ∀ a, (![0, 0] : Fin 2 → Nat) a + S8192x128.size a ≤ S8192x128.size a
  h_S8192x128 : 0 < S8192x128.numel
  broadcasts_S8192x1_S8192x128 : S8192x1.Broadcasts S8192x128
  shapeCasts_S8192x128_S8192x128 : S8192x128.ShapeCasts S8192x128
  bcast_S_S16384x128 : S_.BroadcastsInDim S16384x128 (![] : Fin 0 → Fin S16384x128.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S16384x128_S256x64x128 : S16384x128.ShapeCasts S256x64x128
  gather_S16384x128_S1048576x1_S1048576x128_1_0_n_n_0_1_1128_wf : GatherDims.WF S16384x128 S1048576x1 S1048576x128 [1] [0] [] [0] [] 1 ![1, 128]
  scatter_S16384x128_S1048576x1_S1048576x128_1_0_0_1_wf : ScatterDims.WF S16384x128 S1048576x1 S1048576x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x1.size a ≤ S1048576x1.size a
  hwx0_0 : ∀ i : grid0.Coords, EltTy.bits .f32 = 32 ∨ (Rect.block (s := S1048576x1) S8192x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S1048576x128.size a
  hwx0_1 : ∀ i : grid0.Coords, EltTy.bits .f32 = 32 ∨ (Rect.block (s := S1048576x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S1048576x128.size a
  hwx0_2 : ∀ i : grid0.Coords, EltTy.bits .f32 = 32 ∨ (Rect.block (s := S1048576x128) S8192x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S1048576x128.size a
  hwx0_3 : ∀ i : grid0.Coords, EltTy.bits .f32 = 32 ∨ (Rect.block (s := S1048576x128) S8192x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S16384x128.size a
  hwx1_0 : ∀ i : grid1.Coords, EltTy.bits .f32 = 32 ∨ (Rect.block (s := S16384x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S16384x128.size a
  hwx1_1 : ∀ i : grid1.Coords, EltTy.bits .f32 = 32 ∨ (Rect.block (s := S16384x128) S2048x128.size (cc1_transform_1 i) (hinb1_1 i)).WholeWords (EltTy.packing .f32)

variable [Facts₀]

def gather_S16384x128_S1048576x1_S1048576x128_1_0_n_n_0_1_1128 : GatherDims S16384x128 S1048576x1 S1048576x128 where
  offsetDims := [1]
  collapsedSliceDims := [0]
  operandBatchingDims := []
  startIndicesBatchingDims := []
  startIndexMap := [0]
  indexVectorDim := 1
  sliceSizes := ![1, 128]
  wf := gather_S16384x128_S1048576x1_S1048576x128_1_0_n_n_0_1_1128_wf
def scatter_S16384x128_S1048576x1_S1048576x128_1_0_0_1 : ScatterDims S16384x128 S1048576x1 S1048576x128 where
  updateWindowDims := [1]
  insertedWindowDims := [0]
  scatterDimsToOperandDims := [0]
  indexVectorDim := 1
  wf := scatter_S16384x128_S1048576x1_S1048576x128_1_0_0_1_wf

abbrev win0_0 : Pipeline.Window sig grid0 :=
  Pipeline.Window.ofSpec (Memref.whole main_arg1) S8192x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2048x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S256x64x128 : Shape := ⟨3, ![256, 64, 128]⟩
abbrev S1048576x1 : Shape := ⟨2, ![1048576, 1]⟩
abbrev S1048576x128 : Shape := ⟨2, ![1048576, 128]⟩
abbrev S1048576 : Shape := ⟨1, ![1048576]⟩
abbrev S16384x128 : Shape := ⟨2, ![16384, 128]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S256x64x128, .f32⟩
  | .hbm, ⟨1, _⟩ => ⟨S1048576x1, .f32⟩
  | .hbm, ⟨2, _⟩ => ⟨S1048576x128, .f32⟩
  | .hbm, ⟨3, _⟩ => ⟨S1048576, .i32⟩
  | .hbm, ⟨4, _⟩ => ⟨S1048576, .i32⟩
  | .hbm, ⟨5, _⟩ => ⟨S16384x128, .f32⟩
  | .hbm, ⟨6, _⟩ => ⟨S1048576x128, .f32⟩
  | .hbm, ⟨7, _⟩ => ⟨S1048576x128, .f32⟩
  | .hbm, ⟨8, _⟩ => ⟨S_, .i32⟩
  | .hbm, ⟨9, _⟩ => ⟨S1048576, .i32⟩
  | .hbm, ⟨10, _⟩ => ⟨S1048576, .i1⟩
  | .hbm, ⟨11, _⟩ => ⟨S_, .i32⟩
  | .hbm, ⟨12, _⟩ => ⟨S1048576, .i32⟩
  | .hbm, ⟨13, _⟩ => ⟨S1048576, .i32⟩
  | .hbm, ⟨14, _⟩ => ⟨S1048576, .i32⟩
  | .hbm, ⟨15, _⟩ => ⟨S1048576x1, .i32⟩
  | .hbm, ⟨16, _⟩ => ⟨S1048576x128, .f32⟩
  | .hbm, ⟨17, _⟩ => ⟨S1048576x128, .f32⟩
  | .hbm, ⟨18, _⟩ => ⟨S_, .f32⟩
  | .hbm, ⟨19, _⟩ => ⟨S16384x128, .f32⟩
  | .hbm, ⟨20, _⟩ => ⟨S1048576x1, .i32⟩
  | .hbm, ⟨21, _⟩ => ⟨S16384x128, .f32⟩
  | .hbm, ⟨22, _⟩ => ⟨S_, .f32⟩
  | .hbm, ⟨23, _⟩ => ⟨S16384x128, .f32⟩
  | .hbm, ⟨24, _⟩ => ⟨S16384x128, .f32⟩
  | .hbm, ⟨25, _⟩ => ⟨S256x64x128, .f32⟩
  | _, _ => ⟨S256x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  shapeCasts_S256x64x128_S16384x128 : S256x64x128.ShapeCasts S16384x128
  bcast_S1048576x1_S1048576x128_0_1 : S1048576x1.BroadcastsInDim S1048576x128 (![0, 1] : Fin 2 → Fin S1048576x128.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S16384x128 : S_.BroadcastsInDim S16384x128 (![] : Fin 0 → Fin S16384x128.rank)
  shapeCasts_S16384x128_S256x64x128 : S16384x128.ShapeCasts S256x64x128
  gather_S16384x128_S1048576x1_S1048576x128_1_0_n_n_0_1_1128_wf : GatherDims.WF S16384x128 S1048576x1 S1048576x128 [1] [0] [] [0] [] 1 ![1, 128]
  scatter_S16384x128_S1048576x1_S1048576x128_1_0_0_1_wf : ScatterDims.WF S16384x128 S1048576x1 S1048576x128 [1] [0] [0] 1

variable [Facts₀]

def gather_S16384x128_S1048576x1_S1048576x128_1_0_n_n_0_1_1128 : GatherDims S16384x128 S1048576x1 S1048576x128 where
  offsetDims := [1]
  collapsedSliceDims := [0]
  operandBatchingDims := []
  startIndicesBatchingDims := []
  startIndexMap := [0]
  indexVectorDim := 1
  sliceSizes := ![1, 128]
  wf := gather_S16384x128_S1048576x1_S1048576x128_1_0_n_n_0_1_1128_wf
def scatter_S16384x128_S1048576x1_S1048576x128_1_0_0_1 : ScatterDims S16384x128 S1048576x1 S1048576x128 where
  updateWindowDims := [1]
  insertedWindowDims := [0]
  scatterDimsToOperandDims := [0]
  indexVectorDim := 1
  wf := scatter_S16384x128_S1048576x1_S1048576x128_1_0_0_1_wf

class Facts : Prop extends Facts₀ where

variable [Facts]
-- ==== Proof.Spec.lean ====
/-
  The computation both programs perform, written once.

  A batch of 256 graphs of 64 nodes carries a 128-feature row per node. The node rows are laid flat (16384 rows); each
  of the 1048576 edges reads the row of its source node (a negative source id counts from the end), multiplies it,
  feature by feature, by the edge's parameters scaled by the edge's weight — `(w · p) · row`, in this order —, the
  edges' messages are summed into the rows of their destination nodes, the negative part is cut off, and the rows are
  laid back as graphs.

  `message` and `posPart` are the two dense steps, index by index; `pipeline` is the whole composition. The gather
  and the scatter-add are taken as the host's own operations at records passed in: the two programs print their own
  copies of these records and of the shape facts, and every such argument is a proposition or a record whose only
  non-literal field is one, so the composition does not depend on which copy it is given.
-/
import Idealize.ShloMosaic.PureOps.Ideal
import Idealize.ShloMosaic.Lib.ValueIdx

noncomputable section

namespace Cert.Spec

open Idealize.ShloMosaic

/-- The batch as given: graph, node, feature. -/
abbrev Graphs : Shape := ⟨3, ![256, 64, 128]⟩
/-- The node rows laid flat: node, feature. -/
abbrev NodeFeat : Shape := ⟨2, ![16384, 128]⟩
/-- One entry an edge. -/
abbrev Edges : Shape := ⟨1, ![1048576]⟩
/-- One entry an edge, as a column. -/
abbrev EdgeCol : Shape := ⟨2, ![1048576, 1]⟩
/-- Edge, feature. -/
abbrev EdgeFeat : Shape := ⟨2, ![1048576, 128]⟩
/-- The scalar shape. -/
abbrev Scalar0 : Shape := ⟨0, ![]⟩

variable {F : FTy → Type} [FloatOps F]

/-- The weight column's index for an index of an edge-by-feature array: the same edge, column `0`. -/
def weightOf (i : EdgeFeat.Idx) : EdgeCol.Idx :=
  fun a => match a with | ⟨0, _⟩ => i 0 | ⟨1, _⟩ => (0 : Fin 1)

/-- The per-edge message: the edge's weight times its parameters, times the gathered source row, feature by feature,
    multiplied in this order. -/
def message (w : EdgeCol.Idx → Elt F .f32) (p g : EdgeFeat.Idx → Elt F .f32) : EdgeFeat.Idx → Elt F .f32 :=
  fun i => FloatOps.mulf (FloatOps.mulf (w (weightOf i)) (p i)) (g i)

/-- The positive part of the aggregated rows: `max(a i, 0)` at every index. -/
def posPart (a : NodeFeat.Idx → Elt F .f32) : NodeFeat.Idx → Elt F .f32 :=
  fun i => FloatOps.maximumf (a i) (FloatOps.ofBits .f32 0x00000000#32)

/-- The source ids as the gather takes them: a negative id counts from the end of the 16384 rows; as a column. -/
def sourceRows (hcol : Edges.BroadcastsInDim EdgeCol (![0] : Fin 1 → Fin EdgeCol.rank))
    (hsplat : Scalar0.BroadcastsInDim Edges (![] : Fin 0 → Fin Edges.rank))
    (src : Edges.Idx → Elt F .i32) : EdgeCol.Idx → Elt F .i32 :=
  broadcastInDim EdgeCol ![0] hcol
    (select (cmpi .slt src (broadcastInDim Edges ![] hsplat (constantI Scalar0 32 0#32)))
      (addi src (broadcastInDim Edges ![] hsplat (constantI Scalar0 32 16384#32))) src)

/-- The whole computation, from the five inputs to the result. -/
def pipeline (gd : GatherDims NodeFeat EdgeCol EdgeFeat) (sd : ScatterDims NodeFeat EdgeCol EdgeFeat)
    (hflat : Graphs.ShapeCasts NodeFeat) (hback : NodeFeat.ShapeCasts Graphs)
    (hcol : Edges.BroadcastsInDim EdgeCol (![0] : Fin 1 → Fin EdgeCol.rank))
    (hsplat : Scalar0.BroadcastsInDim Edges (![] : Fin 0 → Fin Edges.rank))
    (hzero : Scalar0.BroadcastsInDim NodeFeat (![] : Fin 0 → Fin NodeFeat.rank))
    (x : Graphs.Idx → Elt F .f32) (w : EdgeCol.Idx → Elt F .f32) (p : EdgeFeat.Idx → Elt F .f32)
    (dst src : Edges.Idx → Elt F .i32) : Graphs.Idx → Elt F .f32 :=
  shapeCast Graphs
    (posPart
      (Host.scatterAdd sd (broadcastInDim NodeFeat ![] hzero (constant Scalar0 .f32 0x00000000#32))
        (broadcastInDim EdgeCol ![0] hcol dst)
        (message w p (Host.gather gd (shapeCast NodeFeat x hflat) (sourceRows hcol hsplat src)))))
    hback

end Cert.Spec

end
-- ==== Proof.EdgeRegion.lean ====
/-
  The first kernel region, read as one function of the three arrays it is entered with.

  The region's grid has 128 points. Point `t` stages rows `8192·t … 8192·t + 8191` of the weight column (one entry a
  row), of the per-edge parameters and of the gathered source rows (128 entries a row each), and its body stores
  `(w · p) · g` of the staged blocks, the weight broadcast along the row. The 128 blocks tile the 1048576 × 128 output
  array, so after the region it holds `(w (e, 0) · p (e, f)) · g (e, f)` at every edge `e` and feature `f`.
-/
import proofs.«100882_j42691974922546_1_alg».proof.Proof.Gen.KernelIdeal.Frame
import proofs.«100882_j42691974922546_1_alg».proof.Proof.Spec
import Idealize.ShloMosaic.Lib.Pipeline.Value
import Idealize.ShloMosaic.Lib.ValueIdx

set_option maxRecDepth 16384

noncomputable section

namespace Cert.KernelIdeal.EdgeRegion

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Spec

variable {F : FTy → Type} [FloatOps F]
variable (V : (c : Dev nD) → (b : Ref sig .tc) → Buf (Elt F) ((c : Thread nD τ).loc b))

/-- Each of the body's rectangles starts at its block's origin. -/
theorem origin : (![0, 0] : Fin 2 → Nat) = fun _ => 0 := funext fun a => by fin_cases a <;> rfl

/-- The weight block's index for an index of a staged edge-by-feature block: the same row, column `0`. -/
def weightOfBlock (j : S8192x128.Idx) : S8192x1.Idx :=
  fun a => match a with | ⟨0, _⟩ => j 0 | ⟨1, _⟩ => (0 : Fin 1)

/-- The body's stored value at an index of the block: the broadcast weight reads the row's one entry, the shape cast
    is between equal shapes. -/
theorem stored_apply (x0 : Vec F S8192x1 .f32) (x1 x2 : Vec F S8192x128 .f32) (j : S8192x128.Idx) :
    k0_pay1 x0 x1 x2 j = FloatOps.mulf (FloatOps.mulf (x0 (weightOfBlock j)) (x1 j)) (x2 j) := by
  unfold k0_pay1
  show FloatOps.mulf (FloatOps.mulf (broadcastTo S8192x128 x0 broadcasts_S8192x1_S8192x128 j) (x1 j))
    (shapeCast S8192x128 x2 shapeCasts_S8192x128_S8192x128 j) = _
  rw [shapeCast_self, broadcastTo_apply x0 broadcasts_S8192x1_S8192x128 j (weightOfBlock j) (fun a => by
    match a with
    | ⟨0, _⟩ => rfl
    | ⟨1, _⟩ => rfl)]

/-- All four windows of the region move together along the edges: block `t` starts at row `8192·t`, column `0`. -/
theorem index_facts : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = win0_3.index t (1 : Fin 2)
    ∧ win0_2.index t (0 : Fin 2) = win0_3.index t (0 : Fin 2)
    ∧ win0_2.index t (1 : Fin 2) = win0_3.index t (1 : Fin 2)
    ∧ win0_3.index t (0 : Fin 2) = t.val
    ∧ win0_3.index t (1 : Fin 2) = 0 :=
  (by decide +kernel : ∀ t : Fin grid0.N, _)

/-- What point `t` writes back is block `t` of the message of the three entry arrays. -/
theorem flushed_eq (c : Dev nD) (t : Fin cfg0.N) :
    (dat0 V c).flushed 3 t
      = ((cfg0.win 3).blk t).view.read (Elt F) (message (V c main_arg1) (V c main_arg2) (V c main_v7)) := by
  show (cfg0.win 3).cut (grid0.coords t) ((dat0 V c).after 3 t) = _
  rw [after0_3]
  unfold out0_3
  rw [View.canon_unit_zero origin]
  simp only [View.ld_unit_zero (S := S8192x128) origin, View.ld_unit_zero (S := S8192x1) origin]
  obtain ⟨e0, e1, e2, e3, e4, e5, e6, e7⟩ := index_facts t
  funext j
  show k0_pay1 (iblk0 V c 0 t) (iblk0 V c 1 t) (iblk0 V c 2 t) j
    = message (V c main_arg1) (V c main_arg2) (V c main_v7) (((cfg0.win 3).blk t).view.emb j)
  rw [stored_apply]
  show FloatOps.mulf (FloatOps.mulf (V c main_arg1 (((cfg0.win 0).blk t).view.emb (weightOfBlock j)))
        (V c main_arg2 (((cfg0.win 1).blk t).view.emb j))) (V c main_v7 (((cfg0.win 2).blk t).view.emb j))
    = FloatOps.mulf (FloatOps.mulf (V c main_arg1 (weightOf (((cfg0.win 3).blk t).view.emb j)))
        (V c main_arg2 (((cfg0.win 3).blk t).view.emb j))) (V c main_v7 (((cfg0.win 3).blk t).view.emb j))
  have h0 : ((cfg0.win 0).blk t).view.emb (weightOfBlock j) = weightOf (((cfg0.win 3).blk t).view.emb j) := by
    funext a; apply Fin.ext
    match a with
    | ⟨0, _⟩ => show win0_0.index t (0 : Fin 2) * 8192 + 1 * (j 0).val = win0_3.index t (0 : Fin 2) * 8192 + 1 * (j 0).val; omega
    | ⟨1, _⟩ => show win0_0.index t (1 : Fin 2) * 1 + 1 * 0 = 0; omega
  have h1 : ((cfg0.win 1).blk t).view.emb j = ((cfg0.win 3).blk t).view.emb j := by
    funext a; apply Fin.ext
    match a with
    | ⟨0, _⟩ => show win0_1.index t (0 : Fin 2) * 8192 + 1 * (j 0).val = win0_3.index t (0 : Fin 2) * 8192 + 1 * (j 0).val; omega
    | ⟨1, _⟩ => show win0_1.index t (1 : Fin 2) * 128 + 1 * (j 1).val = win0_3.index t (1 : Fin 2) * 128 + 1 * (j 1).val; omega
  have h2 : ((cfg0.win 2).blk t).view.emb j = ((cfg0.win 3).blk t).view.emb j := by
    funext a; apply Fin.ext
    match a with
    | ⟨0, _⟩ => show win0_2.index t (0 : Fin 2) * 8192 + 1 * (j 0).val = win0_3.index t (0 : Fin 2) * 8192 + 1 * (j 0).val; omega
    | ⟨1, _⟩ => show win0_2.index t (1 : Fin 2) * 128 + 1 * (j 1).val = win0_3.index t (1 : Fin 2) * 128 + 1 * (j 1).val; omega
  rw [h0, h1, h2]

/-- An index of the output array lies in point `t`'s block iff each coordinate lies in the block's range. -/
theorem mem_block (t : Fin cfg0.N) (i : S1048576x128.Idx) :
    i ∈ ((cfg0.win 3).blk t).view.set ↔ ∀ a : Fin 2, win0_3.index t a * S8192x128.size a ≤ (i a).val ∧ (i a).val < win0_3.index t a * S8192x128.size a + S8192x128.size a := by
  show i ∈ ((View.whole main_v8).slice (win0_3.rect t)).set ↔ _
  rw [View.set_slice_whole, Rect.mem_set_unit]
  exact Iff.rfl

/-- Every index of the output array lies in some point's block: edge `e` lies in block `e / 8192`. -/
theorem covered (i : S1048576x128.Idx) :
    ∃ t : Fin cfg0.N, (cfg0.win 3).flush t = true ∧ i ∈ ((cfg0.win 3).blk t).view.set := by
  have hi0 : (i 0).val < 1048576 := (i 0).isLt
  have hi1 : (i 1).val < 128 := (i 1).isLt
  let t : Fin cfg0.N := ⟨(i 0).val / 8192, by show (i 0).val / 8192 < 128; omega⟩
  obtain ⟨e0, e1, e2, e3, e4, e5, e6, e7⟩ := index_facts t
  have e6' : win0_3.index t (0 : Fin 2) = (i 0).val / 8192 := e6
  refine ⟨t, flush0_3 t, ?_⟩
  rw [mem_block]
  intro a
  match a with
  | ⟨0, _⟩ => show win0_3.index t (0 : Fin 2) * 8192 ≤ (i 0).val ∧ (i 0).val < win0_3.index t (0 : Fin 2) * 8192 + 8192; omega
  | ⟨1, _⟩ => show win0_3.index t (1 : Fin 2) * 128 ≤ (i 1).val ∧ (i 1).val < win0_3.index t (1 : Fin 2) * 128 + 128; omega

/-- After the region its output array is the message of the three arrays it was entered with. -/
theorem final (c : Dev nD) :
    (dat0 V c).arrAt 3 cfg0.N = message (V c main_arg1) (V c main_arg2) (V c main_v7) :=
  (dat0 V c).arrAt_eq_of_cover 3 (message (V c main_arg1) (V c main_arg2) (V c main_v7))
    (fun t _ => flushed_eq V c t) covered

end Cert.KernelIdeal.EdgeRegion

end
-- ==== Proof.ReluRegion.lean ====
/-
  The second kernel region, read as one function of the array it is entered with.

  The region's grid has 8 points. Point `t` stages rows `2048·t … 2048·t + 2047` of the 16384 × 128 array and its
  body stores `max(x, 0)` of the whole staged block back to the same rows of the output array. The eight blocks tile
  the array, so after the region the output array holds `max(a, 0)` at every index, whatever the contents `a` the
  region was entered with.
-/
import proofs.«100882_j42691974922546_1_alg».proof.Proof.Gen.KernelIdeal.Frame
import proofs.«100882_j42691974922546_1_alg».proof.Proof.Spec
import Idealize.ShloMosaic.Lib.Pipeline.Value
import Idealize.ShloMosaic.Lib.ValueIdx

set_option maxRecDepth 16384

noncomputable section

namespace Cert.KernelIdeal.ReluRegion

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Spec

variable {F : FTy → Type} [FloatOps F]
variable (V : (c : Dev nD) → (b : Ref sig .tc) → Buf (Elt F) ((c : Thread nD τ).loc b))

/-- The body's one rectangle starts at the block's origin. -/
theorem origin : (![0, 0] : Fin 2 → Nat) = fun _ => 0 := funext fun a => by fin_cases a <;> rfl

/-- The body's stored value at an index of the block is the positive part of the loaded block there: the shape cast
    is between equal shapes, and the broadcast zero reads as zero everywhere. -/
theorem stored_apply (x : Vec F S2048x128 .f32) (j : S2048x128.Idx) :
    k1_pay1 x j = FloatOps.maximumf (x j) (FloatOps.ofBits .f32 0x00000000#32) := by
  unfold k1_pay1
  show FloatOps.maximumf (shapeCast S2048x128 x shapeCasts_S2048x128_S2048x128 j) _ = _
  rw [shapeCast_self]
  rfl

/-- Both windows of the region move together: block `t` of either array starts at row `2048·t`, column `0`. -/
theorem index_facts : ∀ t : Fin cfg1.N, win1_0.index t (0 : Fin 2) = win1_1.index t (0 : Fin 2)
    ∧ win1_0.index t (1 : Fin 2) = win1_1.index t (1 : Fin 2)
    ∧ win1_1.index t (0 : Fin 2) = t.val
    ∧ win1_1.index t (1 : Fin 2) = 0 :=
  (by decide +kernel : ∀ t : Fin grid1.N, _)

/-- What point `t` writes back is block `t` of the positive part of the entry array. -/
theorem flushed_eq (c : Dev nD) (t : Fin cfg1.N) :
    (dat1 V c).flushed 1 t = ((cfg1.win 1).blk t).view.read (Elt F) (posPart (V c main_v11)) := by
  show (cfg1.win 1).cut (grid1.coords t) ((dat1 V c).after 1 t) = _
  rw [after1_1]
  unfold out1_1
  rw [View.canon_unit_zero origin]
  simp only [View.ld_unit_zero (S := S2048x128) origin]
  obtain ⟨e0, e1, e2, e3⟩ := index_facts t
  funext j
  show k1_pay1 (iblk1 V c 0 t) j = posPart (V c main_v11) (((cfg1.win 1).blk t).view.emb j)
  rw [stored_apply]
  show FloatOps.maximumf (V c main_v11 (((cfg1.win 0).blk t).view.emb j)) _ = FloatOps.maximumf (V c main_v11 (((cfg1.win 1).blk t).view.emb j)) _
  have h0 : ((cfg1.win 0).blk t).view.emb j = ((cfg1.win 1).blk t).view.emb j := by
    funext a; apply Fin.ext
    match a with
    | ⟨0, _⟩ => show win1_0.index t (0 : Fin 2) * 2048 + 1 * (j 0).val = win1_1.index t (0 : Fin 2) * 2048 + 1 * (j 0).val; omega
    | ⟨1, _⟩ => show win1_0.index t (1 : Fin 2) * 128 + 1 * (j 1).val = win1_1.index t (1 : Fin 2) * 128 + 1 * (j 1).val; omega
  rw [h0]

/-- An index of the output array lies in point `t`'s block iff each coordinate lies in the block's range. -/
theorem mem_block (t : Fin cfg1.N) (i : S16384x128.Idx) :
    i ∈ ((cfg1.win 1).blk t).view.set ↔ ∀ a : Fin 2, win1_1.index t a * S2048x128.size a ≤ (i a).val ∧ (i a).val < win1_1.index t a * S2048x128.size a + S2048x128.size a := by
  show i ∈ ((View.whole main_v12).slice (win1_1.rect t)).set ↔ _
  rw [View.set_slice_whole, Rect.mem_set_unit]
  exact Iff.rfl

/-- Every index of the output array lies in some point's block: row `r` lies in block `r / 2048`. -/
theorem covered (i : S16384x128.Idx) :
    ∃ t : Fin cfg1.N, (cfg1.win 1).flush t = true ∧ i ∈ ((cfg1.win 1).blk t).view.set := by
  have hi0 : (i 0).val < 16384 := (i 0).isLt
  have hi1 : (i 1).val < 128 := (i 1).isLt
  let t : Fin cfg1.N := ⟨(i 0).val / 2048, by show (i 0).val / 2048 < 8; omega⟩
  obtain ⟨e0, e1, e2, e3⟩ := index_facts t
  have e2' : win1_1.index t (0 : Fin 2) = (i 0).val / 2048 := e2
  refine ⟨t, flush1_1 t, ?_⟩
  rw [mem_block]
  intro a
  match a with
  | ⟨0, _⟩ => show win1_1.index t (0 : Fin 2) * 2048 ≤ (i 0).val ∧ (i 0).val < win1_1.index t (0 : Fin 2) * 2048 + 2048; omega
  | ⟨1, _⟩ => show win1_1.index t (1 : Fin 2) * 128 ≤ (i 1).val ∧ (i 1).val < win1_1.index t (1 : Fin 2) * 128 + 128; omega

/-- After the region its output array is the positive part of the array it was entered with. -/
theorem final (c : Dev nD) : (dat1 V c).arrAt 1 cfg1.N = posPart (V c main_v11) :=
  (dat1 V c).arrAt_eq_of_cover 1 (posPart (V c main_v11)) (fun t _ => flushed_eq V c t) covered

end Cert.KernelIdeal.ReluRegion

end
-- ==== Proof.KernelValue.lean ====
/-
  The kernel program's result, read back through @main from the launch.

  @main is three stretches of host operations around the two kernel regions. Before the first region the node rows are
  laid flat and the source rows gathered; the region leaves the per-edge messages; the middle stretch sums them into
  the destination rows, starting from zero; the second region cuts off the negative part; the last operation lays the
  rows back as graphs. Each boundary's contents are a function of the previous boundary's, and neither a host
  operation nor a region writes an argument, so reading the result array at the last boundary and walking back gives
  the whole computation of the launch arrays: `Spec.pipeline`.
-/
import proofs.«100882_j42691974922546_1_alg».proof.Proof.Gen.KernelIdeal.Frame
import proofs.«100882_j42691974922546_1_alg».proof.Proof.Spec
import proofs.«100882_j42691974922546_1_alg».proof.Proof.EdgeRegion
import proofs.«100882_j42691974922546_1_alg».proof.Proof.ReluRegion
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.Spec

variable {F : FTy → Type} [FloatOps F]
variable (m : (ℓ : Loc nD τ sig) → Buf (Elt F) ℓ) (ρ : Dev nD → PrngReg)

/-! ## The first region's entry: the arguments as launched, the gathered rows -/

/-- The first stretch writes no argument: the weights are entered as launched. -/
theorem entry_weights (c : Dev nD) : V1 m ρ c main_arg1 = m ((c : Thread nD τ).loc main_arg1) := by
  show StableHlo.after hostOps0 (W0 m ρ c) (Proc.devRef .tc main_arg1) = _
  dsimp only [hostOps0]
  after_results <;> rfl

/-- The parameters are entered as launched. -/
theorem entry_params (c : Dev nD) : V1 m ρ c main_arg2 = m ((c : Thread nD τ).loc main_arg2) := by
  show StableHlo.after hostOps0 (W0 m ρ c) (Proc.devRef .tc main_arg2) = _
  dsimp only [hostOps0]
  after_results <;> rfl

/-- The destination ids are still as launched after the first stretch. -/
theorem entry_dst (c : Dev nD) : W1 m ρ c (Proc.devRef .tc main_arg3) = m ((c : Thread nD τ).loc main_arg3) := by
  show StableHlo.after hostOps0 (W0 m ρ c) (Proc.devRef .tc main_arg3) = _
  dsimp only [hostOps0]
  after_results <;> rfl

/-- The gathered rows: the flat node rows at the source ids, a negative id counted from the end. -/
theorem entry_gathered (c : Dev nD) :
    V1 m ρ c main_v7
      = Host.gather gather_S16384x128_S1048576x1_S1048576x128_1_0_n_n_0_1_1128
          (shapeCast S16384x128 (m ((c : Thread nD τ).loc main_arg0)) shapeCasts_S256x64x128_S16384x128)
          (sourceRows bcast_S1048576_S1048576x1_0 bcast_S_S1048576 (m ((c : Thread nD τ).loc main_arg4))) := by
  show StableHlo.after hostOps0 (W0 m ρ c) (Proc.devRef .tc main_v7) = _
  dsimp only [hostOps0]
  after_results <;> rfl

/-! ## The first region's exit: the messages -/

/-- The first region leaves the per-edge messages of the launch arrays in its output array. -/
theorem messages (c : Dev nD) :
    W2 m ρ c (Proc.devRef .tc main_v8)
      = message (m ((c : Thread nD τ).loc main_arg1)) (m ((c : Thread nD τ).loc main_arg2))
          (Host.gather gather_S16384x128_S1048576x1_S1048576x128_1_0_n_n_0_1_1128
            (shapeCast S16384x128 (m ((c : Thread nD τ).loc main_arg0)) shapeCasts_S256x64x128_S16384x128)
            (sourceRows bcast_S1048576_S1048576x1_0 bcast_S_S1048576 (m ((c : Thread nD τ).loc main_arg4)))) := by
  have h := (W2_arr m ρ c 3).trans (EdgeRegion.final (V1 m ρ) c)
  rw [entry_weights, entry_params, entry_gathered] at h
  exact h

/-- The region writes only its output array: the destination ids are as launched at its exit. -/
theorem exit_dst (c : Dev nD) : W2 m ρ c (Proc.devRef .tc main_arg3) = m ((c : Thread nD τ).loc main_arg3) :=
  (W2_of_ne m ρ c main_arg3 (by decide)).trans (entry_dst m ρ c)

/-! ## The second region's entry and exit -/

/-- The middle stretch sums the messages into the destination rows, from zero. -/
theorem aggregated (c : Dev nD) :
    V3 m ρ c main_v11
      = Host.scatterAdd scatter_S16384x128_S1048576x1_S1048576x128_1_0_0_1
          (broadcastInDim S16384x128 ![] bcast_S_S16384x128 (constant S_ .f32 0x00000000#32))
          (broadcastInDim S1048576x1 ![0] bcast_S1048576_S1048576x1_0 (W2 m ρ c (Proc.devRef .tc main_arg3)))
          (W2 m ρ c (Proc.devRef .tc main_v8)) := by
  show StableHlo.after hostOps1 (W2 m ρ c) (Proc.devRef .tc main_v11) = _
  dsimp only [hostOps1]
  after_results <;> rfl

/-- The second region leaves the positive part of the aggregated rows in its output array. -/
theorem rectified (c : Dev nD) : W4 m ρ c (Proc.devRef .tc main_v12) = posPart (V3 m ρ c main_v11) :=
  (W4_arr m ρ c 1).trans (ReluRegion.final (V3 m ρ) c)

/-- The last operation lays the rows back as graphs. -/
theorem laid_back (c : Dev nD) :
    W5 m ρ c (Proc.devRef .tc main_v13)
      = shapeCast S256x64x128 (W4 m ρ c (Proc.devRef .tc main_v12)) shapeCasts_S16384x128_S256x64x128 := by
  show StableHlo.after hostOps2 (W4 m ρ c) (Proc.devRef .tc main_v13) = _
  dsimp only [hostOps2]
  after_results <;> rfl

/-! ## The result -/

/-- The result array at the last boundary is the whole computation of the launch arrays. -/
theorem result (c : Dev nD) :
    W5 m ρ c (Proc.devRef .tc main_v13)
      = pipeline gather_S16384x128_S1048576x1_S1048576x128_1_0_n_n_0_1_1128 scatter_S16384x128_S1048576x1_S1048576x128_1_0_0_1
          shapeCasts_S256x64x128_S16384x128 shapeCasts_S16384x128_S256x64x128 bcast_S1048576_S1048576x1_0 bcast_S_S1048576
          bcast_S_S16384x128
          (m ((c : Thread nD τ).loc main_arg0)) (m ((c : Thread nD τ).loc main_arg1)) (m ((c : Thread nD τ).loc main_arg2))
          (m ((c : Thread nD τ).loc main_arg3)) (m ((c : Thread nD τ).loc main_arg4)) := by
  rw [laid_back, rectified, aggregated, exit_dst, messages]
  rfl

end Cert.KernelIdeal.Fold

end
-- ==== Proof.RefValue.lean ====
/-
  The reference program's result is the same computation.

  The reference is the one host program: its run ends with the result array at the composition of its operations, of
  the launch arrays. Operation by operation that composition is `Spec.pipeline`: the broadcast of the weight column
  along the features read at an index is the weight of that edge, so the two products are `Spec.message`; the maximum
  with the broadcast zero is `Spec.posPart`; the gather, the sum into destination rows and the two re-layings are the
  same operations.
-/
import proofs.«100882_j42691974922546_1_alg».proof.Proof.Gen.ReferenceIdeal.Run
import proofs.«100882_j42691974922546_1_alg».proof.Proof.Spec
import Idealize.ShloMosaic.Lib.Pipeline.Value

noncomputable section

namespace Cert.ReferenceIdeal.RefValue

open Idealize.ShloMosaic Idealize.ShloMosaic.TcCoe Idealize.SL.Sem
open Cert.ReferenceIdeal Cert.ReferenceIdeal.Gen Cert.Spec

variable {F : FTy → Type} [FloatOps F]

/-- The two host products are the per-edge message: the weight column broadcast along the features reads, at edge
    `e` and feature `f`, the weight of edge `e`. -/
theorem products_eq (w : S1048576x1.Idx → Elt F .f32) (p g : S1048576x128.Idx → Elt F .f32) :
    mulf (mulf (broadcastInDim S1048576x128 ![0, 1] bcast_S1048576x1_S1048576x128_0_1 w) p) g = message w p g := by
  funext i
  show FloatOps.mulf (FloatOps.mulf (broadcastInDim S1048576x128 ![0, 1] bcast_S1048576x1_S1048576x128_0_1 w i) (p i)) (g i)
    = FloatOps.mulf (FloatOps.mulf (w (weightOf i)) (p i)) (g i)
  rw [broadcastInDim_apply ![0, 1] bcast_S1048576x1_S1048576x128_0_1 w i (weightOf i) (fun a => by
    match a with
    | ⟨0, _⟩ => rfl
    | ⟨1, _⟩ => rfl)]

/-- The maximum with the broadcast zero is the positive part. -/
theorem maximum_eq (a : S16384x128.Idx → Elt F .f32) :
    maximumf a (broadcastInDim S16384x128 ![] bcast_S_S16384x128 (constant S_ .f32 0x00000000#32)) = posPart a := by
  funext i
  rfl

/-- The reference run's term is the whole computation of the launch arrays. -/
theorem result_eq (x : S256x64x128.Idx → Elt F .f32) (w : S1048576x1.Idx → Elt F .f32) (p : S1048576x128.Idx → Elt F .f32)
    (dst src : S1048576.Idx → Elt F .i32) :
    shapeCast S256x64x128 (maximumf (Host.scatterAdd scatter_S16384x128_S1048576x1_S1048576x128_1_0_0_1
        (broadcastInDim S16384x128 ![] bcast_S_S16384x128 (constant S_ .f32 0x00000000#32))
        (broadcastInDim S1048576x1 ![0] bcast_S1048576_S1048576x1_0 dst)
        (mulf (mulf (broadcastInDim S1048576x128 ![0, 1] bcast_S1048576x1_S1048576x128_0_1 w) p)
          (Host.gather gather_S16384x128_S1048576x1_S1048576x128_1_0_n_n_0_1_1128
            (shapeCast S16384x128 x shapeCasts_S256x64x128_S16384x128)
            (broadcastInDim S1048576x1 ![0] bcast_S1048576_S1048576x1_0
              (select (cmpi .slt src (broadcastInDim S1048576 ![] bcast_S_S1048576 (constantI S_ 32 0#32)))
                (addi src (broadcastInDim S1048576 ![] bcast_S_S1048576 (constantI S_ 32 16384#32))) src)))))
      (broadcastInDim S16384x128 ![] bcast_S_S16384x128 (constant S_ .f32 0x00000000#32))) shapeCasts_S16384x128_S256x64x128
    = pipeline gather_S16384x128_S1048576x1_S1048576x128_1_0_n_n_0_1_1128 scatter_S16384x128_S1048576x1_S1048576x128_1_0_0_1
        shapeCasts_S256x64x128_S16384x128 shapeCasts_S16384x128_S256x64x128 bcast_S1048576_S1048576x1_0 bcast_S_S1048576
        bcast_S_S16384x128 x w p dst src := by
  rw [products_eq, maximum_eq]
  rfl

end Cert.ReferenceIdeal.RefValue

end
-- ==== Proof.lean ====
/-
  The kernel program and its reference compute the same thing, over the extended reals.

  Both take a batch of node rows, per-edge weights and parameters, and the edges' destination and source node ids.
  Each edge's message is `(w · p) · row`: its weight times its parameters times the row of its source node, feature by
  feature; the messages are summed into the rows of their destination nodes; the negative part is cut off. The
  reference does all of it with host operations. The kernel program does the product in a first kernel region, 8192
  edges a grid point, and the cut in a second one, 2048 rows a grid point, with the gather and the sum left to the
  same host operations around them.

  Nothing is re-associated and no constant differs (the one float constant is zero on both sides), so the two results
  are the same term of the inputs: `Spec.pipeline`. The equality uses no law of the extended reals, and so holds for
  every input, finite or not. What there is to prove is that the kernel regions, block by block, leave the whole-array
  products and maxima (`EdgeRegion.final`, `ReluRegion.final`), that @main's boundaries compose to the pipeline
  (`Fold.result`), and that the reference's operations are the pipeline's (`RefValue.result_eq`).

  The three frames: both kernel programs' are the generated frame certificates; the reference's is its run with the
  result dropped. The idealization rewrote nothing, so `preserves` is trivial.
-/
import proofs.«100882_j42691974922546_1_alg».proof.Defs
import proofs.«100882_j42691974922546_1_alg».proof.Proof.Gen.Kernel
import proofs.«100882_j42691974922546_1_alg».proof.Proof.Gen.Kernel.Frame
import proofs.«100882_j42691974922546_1_alg».proof.Proof.Gen.KernelIdeal
import proofs.«100882_j42691974922546_1_alg».proof.Proof.Gen.KernelIdeal.Frame
import proofs.«100882_j42691974922546_1_alg».proof.Proof.Gen.ReferenceIdeal
import proofs.«100882_j42691974922546_1_alg».proof.Proof.Gen.ReferenceIdeal.Run
import proofs.«100882_j42691974922546_1_alg».proof.Proof.Gen.Pre_finite_inputs
import proofs.«100882_j42691974922546_1_alg».proof.Proof.Spec
import proofs.«100882_j42691974922546_1_alg».proof.Proof.KernelRun
import proofs.«100882_j42691974922546_1_alg».proof.Proof.KernelValue
import proofs.«100882_j42691974922546_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments as launched. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five inputs both programs end with the pipeline of those inputs in their result
    arrays: the kernel program by its regions and the walk back through @main, the reference by its run. -/
theorem algebraic : Cert.algebraic_KernelIdeal_ReferenceIdeal := by
  intro m ρ m' ρ' _ hagree
  refine ⟨fun c => Cert.Spec.pipeline
      Cert.KernelIdeal.gather_S16384x128_S1048576x1_S1048576x128_1_0_n_n_0_1_1128
      Cert.KernelIdeal.scatter_S16384x128_S1048576x1_S1048576x128_1_0_0_1
      Cert.KernelIdeal.Facts₀.shapeCasts_S256x64x128_S16384x128 Cert.KernelIdeal.Facts₀.shapeCasts_S16384x128_S256x64x128
      Cert.KernelIdeal.Facts₀.bcast_S1048576_S1048576x1_0 Cert.KernelIdeal.Facts₀.bcast_S_S1048576
      Cert.KernelIdeal.Facts₀.bcast_S_S16384x128
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Fold.result m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.RefValue.result_eq _ _ _ _ _).trans ?_
    rw [(hagree c).1, (hagree c).2.1, (hagree c).2.2.1, (hagree c).2.2.2.1, (hagree c).2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
